-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554433 : Shape := ⟨1, ![33554433]⟩
abbrev S1 : Shape := ⟨1, ![1]⟩
abbrev S8192x4096 : Shape := ⟨2, ![8192, 4096]⟩
abbrev S_ : Shape := ⟨0, ![]⟩

class Facts : Prop where
  bcast_S_S33554433 : S_.BroadcastsInDim S33554433 (![] : Fin 0 → Fin S33554433.rank)
  reducesTo_S33554433_S_d0 : S33554433.ReducesTo [0] S_
  h_S_ : 0 < S_.numel
  bcast_S_S1 : S_.BroadcastsInDim S1 (![] : Fin 0 → Fin S1.rank)
  reducesTo_S1_S_d0 : S1.ReducesTo [0] S_
  bcast_S_S8192x4096 : S_.BroadcastsInDim S8192x4096 (![] : Fin 0 → Fin S8192x4096.rank)
  reducesTo_S8192x4096_S_d0_1 : S8192x4096.ReducesTo [0, 1] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S33554433 .f32) (main_arg1 : FVec F S1 .f32) (main_arg2 : FVec F S8192x4096 .f32) (main_arg3 : FVec F S1 .f32) : IVec S_ 1 :=
  let main_v0 : FVec F S33554433 .f32 := Host.absf main_arg0
  let main_cst : FVec F S_ .f32 := constant S_ .f32 0x7F800000#32
  let main_v1 : FVec F S33554433 .f32 := broadcastInDim S33554433 ![] bcast_S_S33554433 main_cst
  let main_v2 : IVec S33554433 1 := cmpf .olt main_v0 main_v1
  let main_c : IVec S_ 1 := constantI S_ 1 1#1
  let main_v3 : IVec S_ 1 := (fun x v => Host.reduce IntOp.andi x v reducesTo_S33554433_S_d0 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S33554433 : Shape := ⟨1, ![33554433]⟩
abbrev S1 : Shape := ⟨1, ![1]⟩
abbrev S8192x4096 : Shape := ⟨2, ![8192, 4096]⟩
abbrev S33554432 : Shape := ⟨1, ![33554432]⟩
abbrev S1x1 : Shape := ⟨2, ![1, 1]⟩
abbrev S128x4096 : Shape := ⟨2, ![128, 4096]⟩
abbrev S1x128x4096 : Shape := ⟨3, ![1, 128, 4096]⟩
abbrev S1x1x1 : Shape := ⟨3, ![1, 1, 1]⟩
abbrev S_ : Shape := ⟨0, ![]⟩

abbrev nBuf : Space → Nat
  | .hbm => 17
  | .vmem => 5
  | .smem => 0
  | _ => 0

abbrev bufTy : (tb : Table) → Fin (tcTables nBuf tb) → BufTy
  | .hbm, ⟨0, _⟩ => ⟨S33554433, .f32⟩
  | .hbm, ⟨1, _⟩ => ⟨S1, .f32⟩
  | .hbm, ⟨2, _⟩ => ⟨S8192x4096, .f32⟩
  | .hbm, ⟨3, _⟩ => ⟨S1, .f32⟩
  | .hbm, ⟨4, _⟩ => ⟨S33554432, .f32⟩
  | .hbm, ⟨5, _⟩ => ⟨S8192x4096, .f32⟩
  | .hbm, ⟨6, _⟩ => ⟨S1x1, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S1, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x1, .f32⟩
  | _, _ => ⟨S33554433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S33554433_S33554432_1 : S33554433.Slices ![1] S33554432
  shapeCasts_S33554432_S8192x4096 : S33554432.ShapeCasts S8192x4096
  inb_S1x1_S1x1_0_0 : ∀ a, (![0, 0] : Fin 2 → Nat) a + S1x1.size a ≤ S1x1.size a
  h_S1x1 : 0 < S1x1.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  rotates_S128x4096_d1 : S128x4096.Rotates 1 none
  iota_S128x4096_d0_w32 : S128x4096.Iotas .tc 32 [0]
  iota_S128x4096_d1_w32 : S128x4096.Iotas .tc 32 [1]
  shapeCasts_S1x1_S1x1 : S1x1.ShapeCasts S1x1
  shapeCasts_S128x4096_S1x128x4096 : S128x4096.ShapeCasts S1x128x4096
  reduces_S1x128x4096_S1 : S1x128x4096.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  slices_S33554433_S1_0 : S33554433.Slices ![0] S1
  shapeCasts_S1_S_ : S1.ShapeCasts S_
  bcast_S_S1 : S_.BroadcastsInDim S1 (![] : Fin 0 → Fin S1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S33554433 : Shape := ⟨1, ![33554433]⟩
abbrev S1 : Shape := ⟨1, ![1]⟩
abbrev S8192x4096 : Shape := ⟨2, ![8192, 4096]⟩
abbrev S33554432 : Shape := ⟨1, ![33554432]⟩
abbrev S8191x4095 : Shape := ⟨2, ![8191, 4095]⟩
abbrev S8192x1 : Shape := ⟨2, ![8192, 1]⟩
abbrev S8192x4095 : Shape := ⟨2, ![8192, 4095]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S33554433, .f32⟩
  | .hbm, ⟨1, _⟩ => ⟨S1, .f32⟩
  | .hbm, ⟨2, _⟩ => ⟨S8192x4096, .f32⟩
  | .hbm, ⟨3, _⟩ => ⟨S1, .f32⟩
  | .hbm, ⟨4, _⟩ => ⟨S33554432, .f32⟩
  | .hbm, ⟨5, _⟩ => ⟨S8192x4096, .f32⟩
  | .hbm, ⟨6, _⟩ => ⟨S8191x4095, .f32⟩
  | .hbm, ⟨7, _⟩ => ⟨S8192x1, .f32⟩
  | .hbm, ⟨8, _⟩ => ⟨S8192x4095, .f32⟩
  | .hbm, ⟨9, _⟩ => ⟨S8192x4096, .f32⟩
  | .hbm, ⟨10, _⟩ => ⟨S8191x4095, .f32⟩
  | .hbm, ⟨11, _⟩ => ⟨S8191x4095, .f32⟩
  | .hbm, ⟨12, _⟩ => ⟨S8191x4095, .f32⟩
  | .hbm, ⟨13, _⟩ => ⟨S8191x4095, .f32⟩
  | .hbm, ⟨14, _⟩ => ⟨S8191x4095, .f32⟩
  | .hbm, ⟨15, _⟩ => ⟨S8191x4095, .f32⟩
  | .hbm, ⟨16, _⟩ => ⟨S1, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S1, .f32⟩
  | _, _ => ⟨S33554433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S33554433_S33554432_1 : S33554433.Slices ![1] S33554432
  shapeCasts_S33554432_S8192x4096 : S33554432.ShapeCasts S8192x4096
  slices_S8192x4096_S8191x4095_0_0 : S8192x4096.Slices ![0, 0] S8191x4095
  slices_S8192x4096_S8192x1_0_4095 : S8192x4096.Slices ![0, 4095] S8192x1
  slices_S8192x4096_S8192x4095_0_0 : S8192x4096.Slices ![0, 0] S8192x4095
  concatenates_S8192x1_S8192x4095_S8192x4096_d1 : Shape.Concatenates [S8192x1, S8192x4095] S8192x4096 1
  slices_S33554433_S1_0 : S33554433.Slices ![0] S1
  shapeCasts_S1_S_ : S1.ShapeCasts S_
  bcast_S_S1 : S_.BroadcastsInDim S1 (![] : Fin 0 → Fin S1.rank)
  reducesTo_S8191x4095_S_d0_1 : S8191x4095.ReducesTo [0, 1] S_
  h_S_ : 0 < S_.numel

variable [Facts₀]

class Facts : Prop extends Facts₀ where

variable [Facts]
-- ==== Proof.RosenSum.lean ====
/-
  The mathematics of the certificate, over the extended reals, with no program in sight.

  Two arrays `Y` and `B` of 8192 rows and 4096 columns are given. Write `p(c)` for the column cyclically before `c`
  (`p(0) = 4095`). The ENTRY at row `r`, column `c` is `B[r,c] · (d · d)` with `d = Y[r,c] − Y[r,p(c)] · Y[r,p(c)]`.
  The quantity both programs compute is the TOTAL of the entries over the first 8191 rows and the first 4095 columns.

  One program adds the entries of that rectangle directly. The other walks 64 blocks of 128 whole rows, replaces by zero
  every entry outside the rectangle (the last row, the last column), adds up each block, and adds the 64 block sums one
  after the other. Addition on the extended reals is commutative and associative (infinities included), so the two
  agree: a row index below 8192 is `128·t + p` for exactly one block `t` and one row `p` of it, and the entries replaced
  by zero contribute nothing.
-/
import Idealize.ShloMosaic.Lib.ValueIdx
import Mathlib.Algebra.BigOperators.Fin
import Mathlib.Logic.Equiv.Fin.Basic

noncomputable section

open scoped BigOperators

namespace Cert.Rosen

open Idealize.ShloMosaic Idealize.ShloMosaic.ValueIdx

/-- An array of 8192 rows and 4096 columns of extended reals. -/
abbrev Arr : Type := (⟨2, ![8192, 4096]⟩ : Shape).Idx → EReal

/-- The column cyclically before `c`: `c − 1`, and the last column for `c = 0`. -/
def prevCol (c : Fin 4096) : Fin 4096 := ⟨(c.val + 4095) % 4096, Nat.mod_lt _ (by decide)⟩

/-- The difference `d = Y[r,c] − Y[r,p(c)]²` at an entry. -/
def diff (Y : Arr) (r : Fin 8192) (c : Fin 4096) : EReal :=
  Y (ix2 r c) - Y (ix2 r (prevCol c)) * Y (ix2 r (prevCol c))

/-- The entry `B[r,c] · (d · d)`. -/
def entry (Y B : Arr) (r : Fin 8192) (c : Fin 4096) : EReal :=
  B (ix2 r c) * (diff Y r c * diff Y r c)

/-- The same entry with the product grouped from the left, `(B[r,c] · d) · d`: multiplication of extended reals is
    associative. -/
theorem entry_eq_left (Y B : Arr) (r : Fin 8192) (c : Fin 4096) :
    B (ix2 r c) * diff Y r c * diff Y r c = entry Y B r c := mul_assoc _ _ _

/-- The entry where it lies in the rectangle of the first 8191 rows and 4095 columns, zero elsewhere. -/
def masked (Y B : Arr) (r : Fin 8192) (c : Fin 4096) : EReal :=
  if r.val < 8191 ∧ c.val < 4095 then entry Y B r c else 0

/-- The total over the rectangle. -/
def total (Y B : Arr) : EReal :=
  ∑ r : Fin 8191, ∑ c : Fin 4095, entry Y B (Fin.castSucc r) (Fin.castSucc c)

/-- Row `p` of block `t` is row `128·t + p` of the array. -/
def blockRow (t : Fin 64) (p : Fin 128) : Fin 8192 :=
  ⟨t.val * 128 + p.val, by have := t.isLt; have := p.isLt; omega⟩

/-- The sum of block `t`'s 128 rows of masked entries. -/
def blockSum (Y B : Arr) (t : Fin 64) : EReal :=
  ∑ p : Fin 128, ∑ q : Fin 4096, masked Y B (blockRow t p) q

/-- A sum over `n + 1` indices whose last term is replaced by zero is the sum over the first `n`. -/
theorem sum_mask_last {M : Type*} [AddCommMonoid M] (n : ℕ) (f : Fin (n + 1) → M) :
    ∑ r : Fin (n + 1), (if r.val < n then f r else 0) = ∑ r : Fin n, f (Fin.castSucc r) := by
  rw [Fin.sum_univ_castSucc]
  simp

/-- Every row index below 8192 is `128·t + p` for exactly one block and one row of it: a sum over the rows is the sum
    over the blocks of the sums over their rows. -/
theorem sum_blocks {M : Type*} [AddCommMonoid M] (f : Fin 8192 → M) :
    ∑ t : Fin 64, ∑ p : Fin 128, f (blockRow t p) = ∑ r : Fin 8192, f r := by
  rw [← Fintype.sum_prod_type (f := fun x : Fin 64 × Fin 128 => f (blockRow x.1 x.2))]
  refine Fintype.sum_equiv (finProdFinEquiv (m := 64) (n := 128)) _ _ (fun x => congrArg f (Fin.ext ?_))
  show x.1.val * 128 + x.2.val = ((finProdFinEquiv (m := 64) (n := 128)) x).val
  rw [finProdFinEquiv_apply_val]
  ring

/-- A row of masked entries adds up to the row's part of the rectangle, or to zero for the last row. -/
theorem sum_masked_row (Y B : Arr) (r : Fin 8192) :
    ∑ q : Fin 4096, masked Y B r q
      = if r.val < 8191 then ∑ c : Fin 4095, entry Y B r (Fin.castSucc c) else 0 := by
  unfold masked
  by_cases hr : r.val < 8191
  · simp only [hr, true_and, if_true]
    exact sum_mask_last 4095 (fun q => entry Y B r q)
  · simp only [hr, false_and, if_false, Finset.sum_const_zero]

/-- THE LAW: the 64 block sums add up to the total over the rectangle. -/
theorem sum_blockSum (Y B : Arr) : ∑ t : Fin 64, blockSum Y B t = total Y B := by
  unfold blockSum total
  rw [sum_blocks (fun r => ∑ q : Fin 4096, masked Y B r q)]
  simp only [sum_masked_row]
  exact sum_mask_last 8191 (fun r => ∑ c : Fin 4095, entry Y B r (Fin.castSucc c))

/-- The running sum after block `n`: the block sums of blocks `0 … n`, added in that order from zero. -/
def partialSum (Y B : Arr) (n : ℕ) : EReal :=
  ∑ s ∈ Finset.range (n + 1), if h : s < 64 then blockSum Y B ⟨s, h⟩ else 0

theorem partialSum_zero (Y B : Arr) : partialSum Y B 0 = blockSum Y B 0 := by
  unfold partialSum
  rw [Finset.sum_range_one, dif_pos (by decide)]
  rfl

theorem partialSum_succ (Y B : Arr) (n : ℕ) (h : n + 1 < 64) :
    partialSum Y B (n + 1) = partialSum Y B n + blockSum Y B ⟨n + 1, h⟩ := by
  unfold partialSum
  rw [Finset.sum_range_succ, dif_pos h]

/-- After the last block the running sum is the total. -/
theorem partialSum_last (Y B : Arr) : partialSum Y B 63 = total Y B := by
  unfold partialSum
  rw [Finset.sum_range (fun s => if h : s < 64 then blockSum Y B ⟨s, h⟩ else 0)]
  rw [← sum_blockSum]
  exact Finset.sum_congr rfl (fun s _ => by rw [dif_pos s.isLt])

end Cert.Rosen

end
-- ==== Proof.Payload.lean ====
/-
  What the kernel body adds to its one-entry output block, at the ideal instance.

  At grid point `i` the body holds a block `y` of 128 rows of the array `Y` and the matching block `b` of `B`. It forms, at
  row `p` and column `q` of the block, `(b · d) · d` with `d = y[p,q] − y[p,q'] · y[p,q']`, `q'` the column cyclically before
  `q` (a rotation of the block by one lane), keeps it where the array row `128·i + p` is below 8191 and the column is below
  4095 and puts zero elsewhere, adds all 128 × 4096 of these numbers, and adds that sum to what the output block held.
-/
import proofs.«100171_j37709812858889_1_alg».proof.Proof.Gen.KernelIdeal.Skeleton
import proofs.«100171_j37709812858889_1_alg».proof.Proof.RosenSum
import Idealize.ShloMosaic.Lib.Pipeline.Value
import Idealize.ShloMosaic.Lib.ValueIdx
import Idealize.ShloMosaic.Lib.KernelVsHost
import Idealize.ShloMosaic.Lib.Affine
import Idealize.ShloMosaic.Lib.StableHlo.Predicate
import Idealize.ShloMosaic.PureOps.Ideal.Laws

noncomputable section

open scoped BigOperators

namespace Cert.KernelSide

open Cert.KernelIdeal Cert.KernelIdeal.Gen
open Idealize.ShloMosaic Idealize.ShloMosaic.ValueIdx Cert.Rosen

/-- The difference `d` inside a block: the entry less the square of the entry one column before, cyclically. -/
def blkDiff (y : FVec Ideal S128x4096 .f32) (p : Fin 128) (q : Fin 4096) : EReal :=
  y (ix2 p q) - y (ix2 p (prevCol q)) * y (ix2 p (prevCol q))

/-- What the body sums at row `p`, column `q` of its block at grid coordinate `i0`. -/
def blkTerm (i0 : ℕ) (y b : FVec Ideal S128x4096 .f32) (p : Fin 128) (q : Fin 4096) : EReal :=
  if i0 * 128 + p.val < 8191 ∧ q.val < 4095 then b (ix2 p q) * blkDiff y p q * blkDiff y p q else 0

/-- The two integer comparisons of the mask, on the words the body forms, say: the array row `128·i0 + p` is below 8191
    and the column is below 4095 (all the words are small and non-negative, so signed comparison is comparison). -/
theorem mask_iff (i0 : ℕ) (hi : i0 < 64) (p : Fin 128) (q : Fin 4096) :
    IntOp.andi (IntOp.cmpi .slt (IntOp.addi (BitVec.ofNat 32 p.val) (Scalar.muli (BitVec.ofNat 32 i0) 128#32)) 8191#32)
        (IntOp.cmpi .slt (BitVec.ofNat 32 q.val) 4095#32) = 1#1
      ↔ (i0 * 128 + p.val < 8191 ∧ q.val < 4095) := by
  have hp := p.isLt
  have hq := q.isLt
  have hrow : (IntOp.addi (BitVec.ofNat 32 p.val) (Scalar.muli (BitVec.ofNat 32 i0) 128#32)).toNat = i0 * 128 + p.val := by
    simp only [IntOp.addi, Scalar.muli, IntOp.muli, BitVec.toNat_add, BitVec.toNat_mul, BitVec.toNat_ofNat]
    omega
  have hcol : (BitVec.ofNat 32 q.val).toNat = q.val := by
    simp only [BitVec.toNat_ofNat]
    omega
  rw [IntOp.andi_eq_one, StableHlo.Predicate.slt_iff_toNat (by rw [hrow]; omega) (by decide),
    StableHlo.Predicate.slt_iff_toNat (by rw [hcol]; omega) (by decide), hrow, hcol]
  exact Iff.rfl

/-- The block rotated by one lane, at row `p` and column `q`, is the block at the column cyclically before `q`. -/
theorem rot_apply (y : FVec Ideal S128x4096 .f32) (h : S128x4096.Rotates 1 none) (p : Fin 128) (q : Fin 4096) :
    dynamicRotate 1 1#32 none y h (ix2 p q) = y (ix2 p (prevCol q)) :=
  dynamicRotate_apply (1 : Fin S128x4096.rank) 1#32 y h (ix2 p q) (ix2 p (prevCol q)) (fun b => by
    match b with
    | ⟨0, _⟩ => rfl
    | ⟨1, _⟩ =>
      refine Eq.trans ?_ (if_pos (Fin.ext rfl)).symm
      show (q.val + 4095) % 4096 = (q.val + 4096 - 1 % 4096) % 4096
      omega)

/-- The unmasked term at row `p`, column `q` of the block: `(b · d) · d`, with the rotated block read one column back. -/
theorem term_apply (y b : FVec Ideal S128x4096 .f32) (h : S128x4096.Rotates 1 none) (hc : S128x4096.ShapeCasts S128x4096)
    (p : Fin 128) (q : Fin 4096) :
    mulf (mulf b (subf (shapeCast S128x4096 y hc) (mulf (dynamicRotate 1 1#32 none (shapeCast S128x4096 y hc) h)
        (dynamicRotate 1 1#32 none (shapeCast S128x4096 y hc) h))))
      (subf (shapeCast S128x4096 y hc) (mulf (dynamicRotate 1 1#32 none (shapeCast S128x4096 y hc) h)
        (dynamicRotate 1 1#32 none (shapeCast S128x4096 y hc) h))) (ix2 p q)
      = b (ix2 p q) * blkDiff y p q * blkDiff y p q := by
  rw [shapeCast_self y hc]
  simp only [mulf_apply, subf_apply]
  rw [rot_apply y h p q]
  rfl

/-- The masked vector at row `p`, column `q`: the first operand where the mask's proposition holds, the second elsewhere. -/
theorem sel_apply (i0 : ℕ) (hi : i0 < 64) (h0 : S128x4096.Iotas .tc 32 [0]) (h1 : S128x4096.Iotas .tc 32 [1])
    (a b : FVec Ideal S128x4096 .f32) (p : Fin 128) (q : Fin 4096) :
    select (andi (cmpi .slt (addi (iota .tc S128x4096 32 [0] h0) (broadcast S128x4096 (Scalar.muli (BitVec.ofNat 32 i0) 128#32)))
          (broadcast S128x4096 8191#32)) (cmpi .slt (iota .tc S128x4096 32 [1] h1) (broadcast S128x4096 4095#32))) a b (ix2 p q)
      = if i0 * 128 + p.val < 8191 ∧ q.val < 4095 then a (ix2 p q) else b (ix2 p q) := by
  show (if IntOp.andi (IntOp.cmpi .slt (IntOp.addi (iota .tc S128x4096 32 [0] h0 (ix2 p q)) (Scalar.muli (BitVec.ofNat 32 i0) 128#32)) 8191#32)
      (IntOp.cmpi .slt (iota .tc S128x4096 32 [1] h1 (ix2 p q)) 4095#32) = 1#1 then a (ix2 p q) else b (ix2 p q)) = _
  rw [iota_single_apply, iota_single_apply]
  exact if_congr (mask_iff i0 hi p q) rfl rfl

/-- A sum over both axes of a one-slab vector into a one-entry vector is the sum of all its entries. -/
theorem reduce_total (src : FVec Ideal S1x128x4096 .f32) (h : S1x128x4096.Reduces [1, 2] S1) (hφ : FKind.Formats .f32)
    (hacc : (0x00000000#32 : BitVec 32) = FKind.add.neutral .f32 hφ) (k : S1.Idx) :
    multiReduction .add [1, 2] S1 src 0x00000000#32 h hφ hacc k = ∑ i : S1x128x4096.Idx, src i :=
  Ideal.multiReduction_add_total src 0x00000000#32 h (fun b => by match b with | ⟨0, _⟩ => rfl) hφ hacc k

/-- A vector viewed under another shape has the same entries: their sums agree. -/
theorem sum_shapeCast {s t : Shape} (x : s.Idx → EReal) (h : s.ShapeCasts t) :
    ∑ i : t.Idx, shapeCast t x h i = ∑ i : s.Idx, x i :=
  Equiv.sum_comp (Shape.reshapeEquiv h) x

/-- The one entry of a one-entry vector, taken out through a view of rank three and spread over a 1 × 1 block, is that
    entry: the one-entry shape has a single index. -/
theorem extract_one (v : FVec Ideal S1 .f32) (h1 : S1.ShapeCasts S1x1x1) (h2 : ∀ a, (![0, 0, 0] : Fin 3 → Nat) a < S1x1x1.size a)
    (j : S1x1.Idx) :
    broadcast S1x1 (extractAt ![0, 0, 0] (shapeCast S1x1x1 v h1) h2) j = v (ix1 (0 : Fin 1)) := by
  show v (Shape.reshapeEquiv h1 _) = v (ix1 (0 : Fin 1))
  refine congrArg v (funext fun a => ?_)
  match a with
  | ⟨0, _⟩ => exact Fin.ext (Nat.lt_one_iff.mp (Shape.reshapeEquiv h1 _ ⟨0, _⟩).isLt)

/-- THE PAYLOAD the body stores into the output block, at its one entry: what the block held plus the sum of the block's
    128 × 4096 masked terms. -/
theorem pay2_apply (i : grid0.Coords) (y b : FVec Ideal S128x4096 .f32) (xo : FVec Ideal S1x1 .f32) (j : S1x1.Idx) :
    k0_pay2 (F := Ideal) i y b xo j = xo j + ∑ p : Fin 128, ∑ q : Fin 4096, blkTerm (i 0).val y b p q := by
  unfold k0_pay2
  dsimp only
  refine congrArg₂ (· + ·) (congrFun (shapeCast_self xo _) j) ?_
  refine (extract_one _ _ _ j).trans ?_
  refine (reduce_total _ _ _ _ (ix1 (0 : Fin 1))).trans ?_
  refine (sum_shapeCast _ _).trans ?_
  refine (sum_idx2 _).trans ?_
  refine Finset.sum_congr rfl (fun p _ => Finset.sum_congr rfl (fun q _ => ?_))
  refine (sel_apply (i 0).val (i 0).isLt _ _ _ _ p q).trans ?_
  unfold blkTerm
  refine if_congr Iff.rfl (term_apply y b _ _ p q) ?_
  exact Ideal.ofBits_zero_f32

/-- The payload of the reset at the first grid point: zero. -/
theorem pay1_apply (j : S1x1.Idx) : k0_pay1 (F := Ideal) j = 0 := Ideal.ofBits_zero_f32

end Cert.KernelSide

end
-- ==== Proof.Accum.lean ====
/-
  The kernel region, read at the ideal instance: what its one-entry result array holds when the region ends.

  The region walks 64 grid points. At each it holds block `t` (128 whole rows) of the arrays `Y` and `B` and a one-entry
  output block that is written back to the result array after the last point only. The first point stores zero in the
  output block and adds block 0's sum of masked entries; every later point adds its block's sum to what the point before
  left. So after point `n` the block holds the running sum of the block sums `0 … n` (an induction on the point), and the
  result array ends holding the running sum after point 63, which is the total over the 8191 × 4095 rectangle.
-/
import proofs.«100171_j37709812858889_1_alg».proof.Proof.Gen.KernelIdeal.Frame
import proofs.«100171_j37709812858889_1_alg».proof.Proof.Payload
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.KernelSide

open Cert.KernelIdeal Cert.KernelIdeal.Gen Idealize.ShloMosaic.ValueIdx Cert.Rosen

/-! ## What each case of the body leaves in the output block -/

section Pieces
variable {F : FTy → Type} [FloatOps F]

theorem hz : (![0, 0] : Fin 2 → Nat) = fun _ => 0 := funext fun a => by fin_cases a <;> rfl

/-- CASE B (every grid point but the first): the body leaves in the output block the payload of the two input blocks and
    of what the output block held. -/
theorem out_B (c : Dev nD) (i : grid0.Coords) (a1 : Memref sig .tc .vmem S128x4096 .f32) (h1 : a1.IsWhole)
    (a2 : Memref sig .tc .vmem S128x4096 .f32) (h2 : a2.IsWhole) (a3 : Memref sig .tc .vmem S1x1 .f32) (h3 : a3.IsWhole)
    (hc : ¬cond0_0 i) (x0 x1 : Vec F S128x4096 .f32) (xo : Vec F S1x1 .f32) :
    out0_B_2 c i a1 h1 a2 h2 a3 h3 hc x0 x1 xo = k0_pay2 i x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S128x4096) hz,
    View.ld_unit_zero (S := S1x1) hz]

/-- CASE A (the first grid point): the body first stores zero in the output block, so it leaves the payload of the two
    input blocks and of the zero block. -/
theorem out_A (c : Dev nD) (i : grid0.Coords) (a1 : Memref sig .tc .vmem S128x4096 .f32) (h1 : a1.IsWhole)
    (a2 : Memref sig .tc .vmem S128x4096 .f32) (h2 : a2.IsWhole) (a3 : Memref sig .tc .vmem S1x1 .f32) (h3 : a3.IsWhole)
    (hc : cond0_0 i) (x0 x1 : Vec F S128x4096 .f32) :
    out0_A_2 c i a1 h1 a2 h2 a3 h3 hc x0 x1 = k0_pay2 i x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz]
  simp only [View.readAt_eq_ld, h1.read_unread, h2.read_unread, View.ld_unit_zero (S := S128x4096) hz,
    View.readCov_unit_zero (S := S1x1) _ hz]

end Pieces

/-! ## The blocks, the accumulation, the result array -/

variable (m : (ℓ : Loc nD τ sig) → Buf (Elt Ideal) ℓ) (ρ : Dev nD → PrngReg)

/-- The two arrays the region reads, as it finds them: `Y` (the input vector without its first element, in 8192 rows) and `B`. -/
abbrev Yarr (c : Dev nD) : Arr := V m c main_v1
abbrev Barr (c : Dev nD) : Arr := V m c main_arg2
/-- Their blocks at grid point `t`. -/
abbrev yblk (c : Dev nD) (t : Fin cfg0.N) : FVec Ideal S128x4096 .f32 := iblk m c 0 t
abbrev bblk (c : Dev nD) (t : Fin cfg0.N) : FVec Ideal S128x4096 .f32 := iblk m c 1 t

/-- A grid point as a block number. -/
def blkNo (t : Fin cfg0.N) : Fin 64 := ⟨t.val, lt_of_lt_of_eq t.isLt N_0⟩

/-- At grid point `t` the body's coordinate is `t`, and both input windows sit at block row `t`, block column 0. -/
theorem idx_facts : ∀ t : Fin cfg0.N, (grid0.coords t 0).val = t.val ∧ win0_0.index t 0 = t.val ∧ win0_0.index t 1 = 0
    ∧ win0_1.index t 0 = t.val ∧ win0_1.index t 1 = 0 :=
  (by decide +kernel : ∀ t : Fin grid0.N, (grid0.coords t 0).val = t.val ∧ win0_0.index t 0 = t.val ∧ win0_0.index t 1 = 0
    ∧ win0_1.index t 0 = t.val ∧ win0_1.index t 1 = 0)

/-- Row `p`, column `q` of the block of `Y` at grid point `t` is row `128·t + p`, column `q` of `Y`. -/
theorem yblk_apply (c : Dev nD) (t : Fin cfg0.N) (p : Fin 128) (q : Fin 4096) :
    yblk m c t (ix2 p q) = Yarr m c (ix2 (blockRow (blkNo t) p) q) := by
  show iblk m c 0 t (ix2 p q) = V m c main_v1 (ix2 (blockRow (blkNo t) p) q)
  unfold iblk
  rw [View.read_apply]
  show V m c main_v1 _ = V m c main_v1 _
  congr 1
  funext a
  apply Fin.ext
  match a with
  | ⟨0, _⟩ => show win0_0.index t 0 * 128 + 1 * p.val = t.val * 128 + p.val; rw [(idx_facts t).2.1]; omega
  | ⟨1, _⟩ => show win0_0.index t 1 * 4096 + 1 * q.val = q.val; rw [(idx_facts t).2.2.1]; omega

/-- The same for `B`. -/
theorem bblk_apply (c : Dev nD) (t : Fin cfg0.N) (p : Fin 128) (q : Fin 4096) :
    bblk m c t (ix2 p q) = Barr m c (ix2 (blockRow (blkNo t) p) q) := by
  show iblk m c 1 t (ix2 p q) = V m c main_arg2 (ix2 (blockRow (blkNo t) p) q)
  unfold iblk
  rw [View.read_apply]
  show V m c main_arg2 _ = V m c main_arg2 _
  congr 1
  funext a
  apply Fin.ext
  match a with
  | ⟨0, _⟩ => show win0_1.index t 0 * 128 + 1 * p.val = t.val * 128 + p.val; rw [(idx_facts t).2.2.2.1]; omega
  | ⟨1, _⟩ => show win0_1.index t 1 * 4096 + 1 * q.val = q.val; rw [(idx_facts t).2.2.2.2]; omega

/-- What the body adds at grid point `t` is the sum of block `t`'s masked entries of `Y` and `B`. -/
theorem blkSum_eq (c : Dev nD) (t : Fin cfg0.N) :
    ∑ p : Fin 128, ∑ q : Fin 4096, blkTerm (grid0.coords t 0).val (yblk m c t) (bblk m c t) p q
      = blockSum (Yarr m c) (Barr m c) (blkNo t) := by
  unfold blockSum
  refine Finset.sum_congr rfl (fun p _ => Finset.sum_congr rfl (fun q _ => ?_))
  unfold blkTerm masked blkDiff
  rw [(idx_facts t).1, yblk_apply, yblk_apply, bblk_apply]
  exact if_congr Iff.rfl (entry_eq_left _ _ _ _) rfl

/-- THE ACCUMULATION: after grid point `n` the output block holds the running sum of the block sums `0 … n`. By induction
    on the point: the first point stores zero and adds block 0; every later point adds its block to what the point before
    left. -/
theorem outsAt_eq (c : Dev nD) : ∀ (n : ℕ) (h : n < cfg0.N),
    outsAt0 m c n h = fun _ => partialSum (Yarr m c) (Barr m c) n
  | 0, h => by
    refine (outsAt0_A m c ⟨0, h⟩ rfl).trans ?_
    refine (out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) ((hcond0_0 ⟨0, h⟩).mpr rfl) (iblk m c 0 ⟨0, h⟩) (iblk m c 1 ⟨0, h⟩)).trans ?_
    funext j
    refine (pay2_apply (grid0.coords ⟨0, h⟩) (yblk m c ⟨0, h⟩) (bblk m c ⟨0, h⟩) (k0_pay1 (F := Ideal)) j).trans ?_
    rw [pay1_apply, zero_add, blkSum_eq, partialSum_zero]
    rfl
  | n + 1, h => by
    have hN : cfg0.N = 64 := N_0
    have hB : ¬(⟨n + 1, h⟩ : Fin cfg0.N).val % 64 = 0 := by dsimp only; omega
    refine (outsAt0_B m c ⟨n + 1, h⟩ hB).trans ?_
    refine (out_B (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun hh => hB ((hcond0_0 ⟨n + 1, h⟩).mp hh))
      (iblk m c 0 ⟨n + 1, h⟩) (iblk m c 1 ⟨n + 1, h⟩) (outsAt0 m c n (Nat.lt_of_succ_lt h))).trans ?_
    funext j
    refine (pay2_apply (grid0.coords ⟨n + 1, h⟩) (yblk m c ⟨n + 1, h⟩) (bblk m c ⟨n + 1, h⟩)
      (outsAt0 m c n (Nat.lt_of_succ_lt h)) j).trans ?_
    rw [partialSum_succ (Yarr m c) (Barr m c) n (by omega)]
    exact congrArg₂ (· + ·) (congrFun (outsAt_eq c n (Nat.lt_of_succ_lt h)) j) (blkSum_eq m c ⟨n + 1, h⟩)

/-- The last grid point. -/
def t63 : Fin cfg0.N := ⟨63, by rw [show cfg0.N = 64 from N_0]; decide⟩

/-- What the result array of the region ends holding: the total, at its one entry. -/
abbrev result (c : Dev nD) : Buf (Elt Ideal) ((c : Thread nD τ).loc main_v2) := fun _ => total (Yarr m c) (Barr m c)

/-- The one write-back, after the last grid point, writes the running sum after block 63: the total. -/
theorem flushed_eq (c : Dev nD) (t : Fin cfg0.N) (hf : (cfg0.win 2).flush t = true) :
    (dats m 0 c).flushed 2 t = ((cfg0.win 2).blk t).view.read (Elt Ideal) (result m c) := by
  have h63 : t.val = 63 := by
    have h1 := (flush0_2 t).mp hf
    have h2 := lt_of_lt_of_eq t.isLt N_0
    omega
  obtain rfl : t = t63 := Fin.ext h63
  show (cfg0.win 2).cut (grid0.coords t63) ((dats m 0 c).after 2 t63) = _
  rw [after0_2, outsAt_eq m c t63.val t63.isLt]
  funext y
  rw [View.read_apply]
  exact partialSum_last _ _

/-- So the region's result array ends holding the total: the last point's block is the whole one-entry array. -/
theorem final_o (c : Dev nD) : (dats m 0 c).arrAt 2 cfg0.N = result m c :=
  (dats m 0 c).arrAt_eq_of_cover 2 (result m c) (flushed_eq m c) fun i =>
    ⟨t63, (flush0_2 t63).mpr rfl, by
      show i ∈ ((View.whole main_v2).slice (win0_2.rect t63)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t63 0 * win0_2.size 0 ≤ (i 0 : Nat) ∧ (i 0 : Nat) < win0_2.index t63 0 * win0_2.size 0 + win0_2.xsize (grid0.coords t63) 0
        rw [show win0_2.index t63 0 * win0_2.size 0 = 0 from by decide +kernel, show win0_2.xsize (grid0.coords t63) 0 = 1 from by decide +kernel]
        omega
      | ⟨1, _⟩ =>
        show win0_2.index t63 1 * win0_2.size 1 ≤ (i 1 : Nat) ∧ (i 1 : Nat) < win0_2.index t63 1 * win0_2.size 1 + win0_2.xsize (grid0.coords t63) 1
        rw [show win0_2.index t63 1 * win0_2.size 1 = 0 from by decide +kernel, show win0_2.xsize (grid0.coords t63) 1 = 1 from by decide +kernel]
        omega⟩

end Cert.KernelSide

end
-- ==== Proof.Closing.lean ====
/-
  The closing expression both programs share: from the input vector `x`, the two one-entry inputs `a` and `μ`, and a scalar
  `s`, the one-entry result `(−a) · ((x₀ − μ) · (x₀ − μ)) − s`, where `x₀` is the first element of `x`. Both programs spell
  it with the same operations in the same order; it is stated once so that neither side ever has to open it.
-/
import Idealize.ShloMosaic.PureOps.Ideal
import Idealize.ShloMosaic.Lib.ValueIdx

noncomputable section

namespace Cert.Rosen

open Idealize.ShloMosaic

/-- `(−a) · ((x₀ − μ) · (x₀ − μ)) − s` at the ideal instance, over the literal shapes. -/
def closing (x : FVec Ideal ⟨1, ![33554433]⟩ .f32) (a mu : FVec Ideal ⟨1, ![1]⟩ .f32) (s : FVec Ideal ⟨0, ![]⟩ .f32)
    (h1 : (⟨1, ![33554433]⟩ : Shape).Slices ![0] ⟨1, ![1]⟩) (h2 : (⟨1, ![1]⟩ : Shape).ShapeCasts ⟨0, ![]⟩)
    (h3 : (⟨0, ![]⟩ : Shape).BroadcastsInDim ⟨1, ![1]⟩ (![] : Fin 0 → Fin 1)) : FVec Ideal ⟨1, ![1]⟩ .f32 :=
  subf (mulf (Host.negf (F := Ideal) a)
      (mulf (subf (broadcastInDim ⟨1, ![1]⟩ ![] h3 (shapeCast ⟨0, ![]⟩ (extractStridedSlice ⟨1, ![1]⟩ ![0] x h1) h2)) mu)
        (subf (broadcastInDim ⟨1, ![1]⟩ ![] h3 (shapeCast ⟨0, ![]⟩ (extractStridedSlice ⟨1, ![1]⟩ ![0] x h1) h2)) mu)))
    (broadcastInDim ⟨1, ![1]⟩ ![] h3 s)

end Cert.Rosen

end
-- ==== Proof.KernelRun.lean ====
/-
  The idealized kernel program's run, read: its result is the closing expression of the argument arrays and of the total
  over the 8191 × 4095 rectangle of the entries of `Y` and `B`, where `Y` is the input vector without its first element laid
  out in 8192 rows (the two lines before the region build it) and `B` is the third argument; the arguments end unchanged.
-/
import proofs.«100171_j37709812858889_1_alg».proof.Proof.Accum
import proofs.«100171_j37709812858889_1_alg».proof.Proof.Closing
import Idealize.ShloMosaic.Lib.StableHlo.Run

noncomputable section

open scoped BigOperators
open Idealize.ShloMosaic Idealize.ShloMosaic.TcCoe Idealize.SL.Sem
open Idealize.ShloMosaic.Pipeline (Dat)

namespace Cert.KernelSide

open Cert.KernelIdeal Cert.KernelIdeal.Gen Idealize.ShloMosaic.ValueIdx Cert.Rosen

variable (m : (ℓ : Loc nD τ sig) → Buf (Elt Ideal) ℓ) (ρ : Dev nD → PrngReg)

/-- The lines after the region compute the closing expression from the argument arrays (which nothing has written) and
    the region's one-entry result array, which holds the total. -/
theorem tail_eq (c : Dev nD) :
    Pipeline.afterTail₀ cfgs (dats m) 0 (V0 m) [hostOps1] c main_v12
      = closing (m ((c : Thread nD τ).loc main_arg0)) (m ((c : Thread nD τ).loc main_arg1)) (m ((c : Thread nD τ).loc main_arg3))
          (fun _ => total (Yarr m c) (Barr m c)) slices_S33554433_S1_0 shapeCasts_S1_S_ bcast_S_S1 := by
  have e2 : Pipeline.withArrays (cfgs 0).spec c (V0 m c) (fun w => (dats m 0 c).arrAt w (cfgs 0).N) (Proc.devRef .tc main_v2)
      = result m c :=
    (Pipeline.withArrays_arr spec0 launch0.win.arr_inj c (V0 m c) (fun w => (dats m 0 c).arrAt w (cfgs 0).N) 2).trans (final_o m c)
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  show StableHlo.after hostOps1 _ (Proc.devRef .tc main_v12) = _
  after_results
  rw [e0, e1, e2, e3]
  rfl

/-- `Y` as the region finds it: the two lines before the region drop the first element of the input vector and lay the
    rest out in 8192 rows of 4096. -/
theorem Yarr_eq (c : Dev nD) :
    Yarr m c = shapeCast S8192x4096 (extractStridedSlice S33554432 ![1] (m ((c : Thread nD τ).loc main_arg0))
      slices_S33554433_S33554432_1) shapeCasts_S33554432_S8192x4096 := by
  show StableHlo.after hostOps0 (fun b => m (c, b)) (Proc.devRef .tc main_v1) = _
  after_results
  rfl

/-- `B` as the region finds it: the third argument, which no line before the region writes. -/
theorem Barr_eq (c : Dev nD) : Barr m c = m ((c : Thread nD τ).loc main_arg2) := V_main_arg2 m c

/-- THE RUN: every weakly fair execution of the idealized kernel program terminates with its result at the closing
    expression of the arguments and of the total, and the arguments unchanged. -/
theorem run : θ_run defs (onTc (τ := τ) (main (F := Ideal))) ⟨m, fun _ => 0, ρ⟩ fun r => ∀ c : Dev nD,
      r.2.mem ((c.tc : Thread nD τ).loc main_v12)
        = closing (m ((c.tc : Thread nD τ).loc main_arg0)) (m ((c.tc : Thread nD τ).loc main_arg1)) (m ((c.tc : Thread nD τ).loc main_arg3))
            (fun _ => total (shapeCast S8192x4096 (extractStridedSlice S33554432 ![1] (m ((c.tc : Thread nD τ).loc main_arg0))
              slices_S33554433_S33554432_1) shapeCasts_S33554432_S8192x4096) (m ((c.tc : Thread nD τ).loc main_arg2)))
            slices_S33554433_S1_0 shapeCasts_S1_S_ bcast_S_S1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v12 (Pipeline.mem_restRefs_of main_v12 (by decide) (by decide))).trans (tail_eq m c)).trans
        (by rw [Yarr_eq, Barr_eq]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelSide

end
-- ==== Proof.RefSide.lean ====
/-
  The reference program, read index by index at the ideal instance.

  Its array `y` (the input vector without its first element, laid out in 8192 rows of 4096) is kept as it stands. The
  roll by one column is a concatenation of the last column and the first 4095: at column `c` it holds `y` at the column
  cyclically before `c`. So each summand of the reference's sum is an entry `b · (d · d)`, `d = y − y_prev · y_prev`, of
  the first 8191 rows and 4095 columns, and the host's sum from the zero word is that word plus the total of the entries.
-/
import proofs.«100171_j37709812858889_1_alg».proof.Proof.Gen.ReferenceIdeal.Read
import proofs.«100171_j37709812858889_1_alg».proof.Proof.RosenSum
import proofs.«100171_j37709812858889_1_alg».proof.Proof.Closing
import Idealize.ShloMosaic.Lib.Pipeline.Value
import Idealize.ShloMosaic.Lib.ValueIdx

noncomputable section

open scoped BigOperators

namespace Cert.RefSide

open Cert.ReferenceIdeal Cert.ReferenceIdeal.Gen Cert.ReferenceIdeal.Read
open Idealize.ShloMosaic Idealize.ShloMosaic.ValueIdx Cert.Rosen

/-- The rolled array at row `r`, column `c` is `y` at row `r` and the column cyclically before `c`: column 0 comes from the
    one-column piece (the last column of `y`), every other column `c` from column `c − 1` of the 4095-column piece. -/
theorem roll_apply (x0 : (⟨S33554433, .f32⟩ : BufTy).Contents (Elt Ideal)) (r : Fin 8192) (c : Fin 4096) :
    val_main_v3 (F := Ideal) x0 (ix2 r c) = val_main_v1 (F := Ideal) x0 (ix2 r (prevCol c)) := by
  unfold val_main_v3
  by_cases hc : c.val = 0
  · rw [concatenate_pair_apply_left (1 : Fin S8192x4096.rank) _ _ concatenates_S8192x1_S8192x4095_S8192x4096_d1
      (ix2 r c) rfl (ix2 r (0 : Fin 1)) (fun b => by
        match b with
        | ⟨0, _⟩ => rfl
        | ⟨1, _⟩ => exact hc.symm)]
    rw [val_main_call0_v0_apply]
    refine congrArg _ (funext fun d => Fin.ext ?_)
    match d with
    | ⟨0, _⟩ => rfl
    | ⟨1, _⟩ =>
      show 4095 + 0 = (c.val + 4095) % 4096
      omega
  · have hc1 : 1 ≤ c.val := Nat.one_le_iff_ne_zero.mpr hc
    have hlt : c.val < 4096 := c.isLt
    rw [concatenate_pair_apply_right (1 : Fin S8192x4096.rank) _ _ concatenates_S8192x1_S8192x4095_S8192x4096_d1
      (ix2 r c) rfl rfl (ix2 r (⟨c.val - 1, by omega⟩ : Fin 4095)) (fun b hb => by
        match b with
        | ⟨0, _⟩ => rfl
        | ⟨1, _⟩ => exact absurd rfl hb) (by
        show c.val - 1 + 1 = c.val
        omega)]
    rw [val_main_call0_v1_apply]
    refine congrArg _ (funext fun d => Fin.ext ?_)
    match d with
    | ⟨0, _⟩ => rfl
    | ⟨1, _⟩ =>
      show c.val - 1 = (c.val + 4095) % 4096
      omega

/-- A summand of the reference's sum, at row `a` and column `b` of the 8191 × 4095 rectangle, is the entry there. -/
theorem summand_apply (x0 : (⟨S33554433, .f32⟩ : BufTy).Contents (Elt Ideal))
    (x2 : (⟨S8192x4096, .f32⟩ : BufTy).Contents (Elt Ideal)) (a : Fin 8191) (b : Fin 4095) :
    val_main_v9 (F := Ideal) x0 x2 (ix2 a b)
      = entry (val_main_v1 (F := Ideal) x0) x2 (Fin.castSucc a) (Fin.castSucc b) := by
  have e2 : idx_main_v2 (ix2 a b) = ix2 (Fin.castSucc a : Fin 8192) (Fin.castSucc b : Fin 4096) :=
    funext fun d => match d with | ⟨0, _⟩ => rfl | ⟨1, _⟩ => rfl
  have e4 : idx_main_v4 (ix2 a b) = ix2 (Fin.castSucc a : Fin 8192) (Fin.castSucc b : Fin 4096) :=
    funext fun d => match d with | ⟨0, _⟩ => rfl | ⟨1, _⟩ => rfl
  have e5 : idx_main_v5 (ix2 a b) = ix2 (Fin.castSucc a : Fin 8192) (Fin.castSucc b : Fin 4096) :=
    funext fun d => match d with | ⟨0, _⟩ => rfl | ⟨1, _⟩ => rfl
  rw [val_main_v9_apply, val_main_v8_apply, val_main_v7_apply, val_main_v6_apply, val_main_v5_apply, val_main_v4_apply,
    val_main_v2_apply, e2, e4, e5, roll_apply]
  rfl

/-- The reference's sum: the zero word plus the total of the entries over the rectangle. -/
theorem sum_apply (x0 : (⟨S33554433, .f32⟩ : BufTy).Contents (Elt Ideal))
    (x2 : (⟨S8192x4096, .f32⟩ : BufTy).Contents (Elt Ideal)) (i : S_.Idx) :
    val_main_v17 (F := Ideal) x0 x2 i
      = Ideal.ofBits .f32 0x00000000#32 + total (val_main_v1 (F := Ideal) x0) x2 := by
  rw [val_main_v17_apply, sum_idx2]
  unfold total
  simp only [summand_apply]
  rfl

/-- THE REFERENCE'S RESULT: the closing expression of the arguments and of the total of the entries (the zero word the
    host's sum starts from is the extended real zero). -/
theorem result_eq (x0 : (⟨S33554433, .f32⟩ : BufTy).Contents (Elt Ideal)) (x1 : (⟨S1, .f32⟩ : BufTy).Contents (Elt Ideal))
    (x2 : (⟨S8192x4096, .f32⟩ : BufTy).Contents (Elt Ideal)) (x3 : (⟨S1, .f32⟩ : BufTy).Contents (Elt Ideal)) :
    val_main_v19 (F := Ideal) x0 x1 x2 x3
      = closing x0 x1 x3 (fun _ => total (val_main_v1 (F := Ideal) x0) x2) slices_S33554433_S1_0 shapeCasts_S1_S_ bcast_S_S1 := by
  have e : val_main_v17 (F := Ideal) x0 x2 = fun _ => total (val_main_v1 (F := Ideal) x0) x2 :=
    funext fun i => by rw [sum_apply, Ideal.ofBits_zero_f32, zero_add]
  rw [← e]
  rfl

end Cert.RefSide

end
-- ==== Proof.lean ====
/-
  The kernel adds up `b · (y − y_prev²)²` over the first 8191 rows and 4095 columns of a 8192 × 4096 array `y` (the input
  vector without its first element; `y_prev` is `y` one column back, cyclically) and returns `−a · (x₀ − μ)² − sum`.

  The reference slices the 8191 × 4095 rectangle out and sums it in one go. The kernel walks 64 blocks of 128 whole rows,
  puts zero where the row is the last one or the column is the last one, sums each block, and accumulates the block sums
  in a one-entry output that is reset at the first block. Per entry the kernel forms `(b · d) · d` and the reference
  `b · (d · d)`: equal because multiplication of extended reals is associative. The masked block sums add up to the sum
  over the rectangle because addition of extended reals is commutative and associative, every row index is `128·t + p`
  for exactly one block `t` and row `p`, and the masked-out entries are zeros. Neither law needs the inputs to be finite,
  so the precondition is never opened. Both programs then apply the same closing expression to the same arguments.

  The three frames: the two kernel programs by their whole-program frame runs, the reference by its run with the result
  dropped. The ideal pass rewrote nothing, so the idealization claim is trivially true.
-/
import proofs.«100171_j37709812858889_1_alg».proof.Defs
import proofs.«100171_j37709812858889_1_alg».proof.Proof.Gen.Kernel
import proofs.«100171_j37709812858889_1_alg».proof.Proof.Gen.Kernel.Frame
import proofs.«100171_j37709812858889_1_alg».proof.Proof.Gen.KernelIdeal
import proofs.«100171_j37709812858889_1_alg».proof.Proof.Gen.KernelIdeal.Frame
import proofs.«100171_j37709812858889_1_alg».proof.Proof.Gen.ReferenceIdeal
import proofs.«100171_j37709812858889_1_alg».proof.Proof.Gen.ReferenceIdeal.Run
import proofs.«100171_j37709812858889_1_alg».proof.Proof.Gen.Pre_finite_inputs
import proofs.«100171_j37709812858889_1_alg».proof.Proof.KernelRun
import proofs.«100171_j37709812858889_1_alg».proof.Proof.RefSide
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From arguments that agree, the idealized kernel and the idealized reference both end at the closing expression of
    the arguments and of the total over the rectangle: the same extended real. -/
theorem algebraic : Cert.algebraic_KernelIdeal_ReferenceIdeal := by
  intro m ρ m' ρ' _ hagree
  refine ⟨_, Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefSide.result_eq, (hagree c).1, (hagree c).2.1, (hagree c).2.2.1,
    (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
